-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x256 : Shape := ⟨2, ![2048, 256]⟩
abbrev S256 : Shape := ⟨1, ![256]⟩
abbrev S256x8 : Shape := ⟨2, ![256, 8]⟩
abbrev S8 : Shape := ⟨1, ![8]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S256 : S_.BroadcastsInDim S256 (![] : Fin 0 → Fin S256.rank)
  reducesTo_S256_S_d0 : S256.ReducesTo [0] S_
  bcast_S_S256x8 : S_.BroadcastsInDim S256x8 (![] : Fin 0 → Fin S256x8.rank)
  reducesTo_S256x8_S_d0_1 : S256x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8 .f32) (main_v13 : IVec S_ 1) (main_v16 : IVec S256x8 1) : IVec S_ 1 :=
  let main_c_5 : IVec S_ 1 := constantI S_ 1 1#1
  let main_v17 : IVec S_ 1 := (fun x v => Host.reduce IntOp.andi x v reducesTo_S256x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S16384x2048 .f32) (main_arg1 : FVec F S2048x256 .f32) (main_arg2 : FVec F S256 .f32) (main_arg3 : FVec F S256x8 .f32) (main_arg4 : FVec F S8 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x8 .f32 := Host.absf main_arg3
  let main_cst_4 : FVec F S_ .f32 := constant S_ .f32 0x7F800000#32
  let main_v15 : FVec F S256x8 .f32 := broadcastInDim S256x8 ![] bcast_S_S256x8 main_cst_4
  let main_v16 : IVec S256x8 1 := cmpf .olt main_v14 main_v15
  fn_part1 (F := F) main_arg4 main_v13 main_v16
-- ==== Kernel.lean ====
abbrev S16384x2048 : Shape := ⟨2, ![16384, 2048]⟩
abbrev S2048x256 : Shape := ⟨2, ![2048, 256]⟩
abbrev S256 : Shape := ⟨1, ![256]⟩
abbrev S256x8 : Shape := ⟨2, ![256, 8]⟩
abbrev S8 : Shape := ⟨1, ![8]⟩
abbrev S1x256 : Shape := ⟨2, ![1, 256]⟩
abbrev S1x8 : Shape := ⟨2, ![1, 8]⟩
abbrev S16384x8 : Shape := ⟨2, ![16384, 8]⟩
abbrev S2048x2048 : Shape := ⟨2, ![2048, 2048]⟩
abbrev S2048x8 : Shape := ⟨2, ![2048, 8]⟩
abbrev S2048 : Shape := ⟨1, ![2048]⟩
abbrev S2048x1 : Shape := ⟨2, ![2048, 1]⟩

abbrev nBuf : Space → Nat
  | .hbm => 8
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048x256, .f32⟩
  | .hbm, ⟨2, _⟩ => ⟨S256, .f32⟩
  | .hbm, ⟨3, _⟩ => ⟨S256x8, .f32⟩
  | .hbm, ⟨4, _⟩ => ⟨S8, .f32⟩
  | .hbm, ⟨5, _⟩ => ⟨S1x256, .f32⟩
  | .hbm, ⟨6, _⟩ => ⟨S1x8, .f32⟩
  | .hbm, ⟨7, _⟩ => ⟨S16384x8, .f32⟩
  | .local _ .vmem, ⟨0, _⟩ => ⟨S2048x2048, .f32⟩
  | .local _ .vmem, ⟨1, _⟩ => ⟨S2048x2048, .f32⟩
  | .local _ .vmem, ⟨2, _⟩ => ⟨S2048x256, .f32⟩
  | .local _ .vmem, ⟨3, _⟩ => ⟨S1x256, .f32⟩
  | .local _ .vmem, ⟨4, _⟩ => ⟨S256x8, .f32⟩
  | .local _ .vmem, ⟨5, _⟩ => ⟨S1x8, .f32⟩
  | .local _ .vmem, ⟨6, _⟩ => ⟨S2048x8, .f32⟩
  | .local _ .vmem, ⟨7, _⟩ => ⟨S2048x8, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S256_S1x256 : S256.ShapeCasts S1x256
  shapeCasts_S8_S1x8 : S8.ShapeCasts S1x8
  inb_S2048x2048_S2048x2048_0_0 : ∀ a, (![0, 0] : Fin 2 → Nat) a + S2048x2048.size a ≤ S2048x2048.size a
  h_S2048x2048 : 0 < S2048x2048.numel
  inb_S2048x256_S2048x256_0_0 : ∀ a, (![0, 0] : Fin 2 → Nat) a + S2048x256.size a ≤ S2048x256.size a
  h_S2048x256 : 0 < S2048x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x8_S256x8_0_0 : ∀ a, (![0, 0] : Fin 2 → Nat) a + S256x8.size a ≤ S256x8.size a
  h_S256x8 : 0 < S256x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2048x8 : S1x8.Broadcasts S2048x8
  reduces_S2048x8_S2048 : S2048x8.Reduces [1] S2048
  shapeCasts_S2048_S2048x1 : S2048.ShapeCasts S2048x1
  broadcasts_S2048x1_S2048x8 : S2048x1.Broadcasts S2048x8
  inb_S2048x8_S2048x8_0_0 : ∀ a, (![0, 0] : Fin 2 → Nat) a + S2048x8.size a ≤ S2048x8.size a
  h_S2048x8 : 0 < S2048x8.numel
  dot_S2048x2048_S2048x256_S2048x256_1_0_0_1_n_n_wf : DotDims.WF S2048x2048 S2048x256 S2048x256 [1] [0] [0] [1] [] []
  dot_S2048x256_S256x8_S2048x8_1_0_0_1_n_n_wf : DotDims.WF S2048x256 S256x8 S2048x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S16384x2048.size a
  hwx0_0 : ∀ i : grid0.Coords, EltTy.bits .f32 = 32 ∨ (Rect.block (s := S16384x2048) S2048x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .f32 = 32 ∨ (Rect.block (s := S2048x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x8.size a ≤ S256x8.size a
  hwx0_3 : ∀ i : grid0.Coords, EltTy.bits .f32 = 32 ∨ (Rect.block (s := S256x8) S256x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8.size a ≤ S1x8.size a
  hwx0_4 : ∀ i : grid0.Coords, EltTy.bits .f32 = 32 ∨ (Rect.block (s := S1x8) S1x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x8.size a ≤ S16384x8.size a
  hwx0_5 : ∀ i : grid0.Coords, EltTy.bits .f32 = 32 ∨ (Rect.block (s := S16384x8) S2048x8.size (cc0_transform_5 i) (hinb0_5 i)).WholeWords (EltTy.packing .f32)

variable [Facts₀]

def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S2048x256_S256x8_S2048x8_1_0_0_1_n_n : DotDims S2048x256 S256x8 S2048x8 where
  lhsContracting := [1]
  rhsContracting := [0]
  lhsNonContracting := [0]
  rhsNonContracting := [1]
  lhsBatch := []
  rhsBatch := []
  wf := dot_S2048x256_S256x8_S2048x8_1_0_0_1_n_n_wf

abbrev win0_0 : Pipeline.Window sig grid0 :=
  Pipeline.Window.ofSpec (Memref.whole main_arg0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2048x8.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x256 : Shape := ⟨2, ![2048, 256]⟩
abbrev S256 : Shape := ⟨1, ![256]⟩
abbrev S256x8 : Shape := ⟨2, ![256, 8]⟩
abbrev S8 : Shape := ⟨1, ![8]⟩
abbrev S16384x256 : Shape := ⟨2, ![16384, 256]⟩
abbrev S1x256 : Shape := ⟨2, ![1, 256]⟩
abbrev S_ : Shape := ⟨0, ![]⟩
abbrev S16384x8 : Shape := ⟨2, ![16384, 8]⟩
abbrev S1x8 : Shape := ⟨2, ![1, 8]⟩
abbrev S16384 : Shape := ⟨1, ![16384]⟩
abbrev S16384x1 : Shape := ⟨2, ![16384, 1]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x256, .f32⟩
  | .hbm, ⟨2, _⟩ => ⟨S256, .f32⟩
  | .hbm, ⟨3, _⟩ => ⟨S256x8, .f32⟩
  | .hbm, ⟨4, _⟩ => ⟨S8, .f32⟩
  | .hbm, ⟨5, _⟩ => ⟨S16384x256, .f32⟩
  | .hbm, ⟨6, _⟩ => ⟨S1x256, .f32⟩
  | .hbm, ⟨7, _⟩ => ⟨S16384x256, .f32⟩
  | .hbm, ⟨8, _⟩ => ⟨S16384x256, .f32⟩
  | .hbm, ⟨9, _⟩ => ⟨S_, .f32⟩
  | .hbm, ⟨10, _⟩ => ⟨S16384x256, .f32⟩
  | .hbm, ⟨11, _⟩ => ⟨S16384x256, .f32⟩
  | .hbm, ⟨12, _⟩ => ⟨S16384x8, .f32⟩
  | .hbm, ⟨13, _⟩ => ⟨S1x8, .f32⟩
  | .hbm, ⟨14, _⟩ => ⟨S16384x8, .f32⟩
  | .hbm, ⟨15, _⟩ => ⟨S16384x8, .f32⟩
  | .hbm, ⟨16, _⟩ => ⟨S_, .f32⟩
  | .hbm, ⟨17, _⟩ => ⟨S16384x8, .f32⟩
  | .hbm, ⟨18, _⟩ => ⟨S16384x8, .f32⟩
  | .hbm, ⟨19, _⟩ => ⟨S_, .f32⟩
  | .hbm, ⟨20, _⟩ => ⟨S16384, .f32⟩
  | .hbm, ⟨21, _⟩ => ⟨S_, .f32⟩
  | .hbm, ⟨22, _⟩ => ⟨S16384, .f32⟩
  | .hbm, ⟨23, _⟩ => ⟨S16384, .f32⟩
  | .hbm, ⟨24, _⟩ => ⟨S16384x1, .f32⟩
  | .hbm, ⟨25, _⟩ => ⟨S16384x8, .f32⟩
  | .hbm, ⟨26, _⟩ => ⟨S16384x8, .f32⟩
  | .hbm, ⟨27, _⟩ => ⟨S16384x8, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S16384x8, .f32⟩
  | .hbm, ⟨32, _⟩ => ⟨S16384x8, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S8_S1x8_1 : S8.BroadcastsInDim S1x8 (![1] : Fin 1 → Fin S1x8.rank)
  bcast_S1x8_S16384x8_0_1 : S1x8.BroadcastsInDim S16384x8 (![0, 1] : Fin 2 → Fin S16384x8.rank)
  bcast_S_S16384x8 : S_.BroadcastsInDim S16384x8 (![] : Fin 0 → Fin S16384x8.rank)
  reducesTo_S16384x8_S16384_d1 : S16384x8.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x8_0_1 : S16384x1.BroadcastsInDim S16384x8 (![0, 1] : Fin 2 → Fin S16384x8.rank)
  dot_S16384x2048_S2048x256_S16384x256_1_0_0_1_n_n_wf : DotDims.WF S16384x2048 S2048x256 S16384x256 [1] [0] [0] [1] [] []
  dot_S16384x256_S256x8_S16384x8_1_0_0_1_n_n_wf : DotDims.WF S16384x256 S256x8 S16384x8 [1] [0] [0] [1] [] []

variable [Facts₀]

def dot_S16384x2048_S2048x256_S16384x256_1_0_0_1_n_n : DotDims S16384x2048 S2048x256 S16384x256 where
  lhsContracting := [1]
  rhsContracting := [0]
  lhsNonContracting := [0]
  rhsNonContracting := [1]
  lhsBatch := []
  rhsBatch := []
  wf := dot_S16384x2048_S2048x256_S16384x256_1_0_0_1_n_n_wf
def dot_S16384x256_S256x8_S16384x8_1_0_0_1_n_n : DotDims S16384x256 S256x8 S16384x8 where
  lhsContracting := [1]
  rhsContracting := [0]
  lhsNonContracting := [0]
  rhsNonContracting := [1]
  lhsBatch := []
  rhsBatch := []
  wf := dot_S16384x256_S256x8_S16384x8_1_0_0_1_n_n_wf

class Facts : Prop extends Facts₀ where

variable [Facts]
-- ==== Proof.Spec.lean ====
import Idealize.ShloMosaic.PureOps.Ideal.Laws
import Idealize.ShloMosaic.Lib.ValueIdx
import Idealize.ShloMosaic.Lib.IdealHost

noncomputable section

open scoped BigOperators

/-! # The token router on one token, over the extended reals

One token is a row `xr` of 2048 features. The router is a two-layer perceptron followed by a softmax over its 8
outputs: `hidden j = max (∑ k, xr k · W1 k j + b1 j) 0`, `logit q = ∑ j, hidden j · W2 j q + b2 q`, and the score of
expert `q` is `exp (logit q − M) / ∑ q', exp (logit q' − M)` with `M` the largest logit, taken as the fold of `max`
from `−∞`. Every other row of the batch plays no part in a token's scores, so both programs are this one function
applied row by row; nothing here depends on how many rows there are or how they are tiled. -/

namespace Cert.Router

open Idealize.ShloMosaic

/-- Unit `j` of the hidden layer: the affine map then the rectifier. -/
def hidden (xr : Fin 2048 → EReal) (W1 : Fin 2048 → Fin 256 → EReal) (b1 : Fin 256 → EReal) (j : Fin 256) : EReal :=
  max (∑ k : Fin 2048, xr k * W1 k j + b1 j) 0

/-- Logit `q`: the second affine map on the hidden layer. -/
def logit (xr : Fin 2048 → EReal) (W1 : Fin 2048 → Fin 256 → EReal) (b1 : Fin 256 → EReal)
    (W2 : Fin 256 → Fin 8 → EReal) (b2 : Fin 8 → EReal) (q : Fin 8) : EReal :=
  ∑ j : Fin 256, hidden xr W1 b1 j * W2 j q + b2 q

/-- The largest of eight logits, folded from `−∞`. -/
def rowMax (l : Fin 8 → EReal) : EReal := (Finset.univ : Finset (Fin 8)).fold max ⊥ l

/-- The shifted exponential of logit `q`. -/
def expShift (l : Fin 8 → EReal) (q : Fin 8) : EReal := Ideal.exp (l q - rowMax l)

/-- The softmax of eight logits at `q`. -/
def softmax (l : Fin 8 → EReal) (q : Fin 8) : EReal := Ideal.div (expShift l q) (∑ q' : Fin 8, expShift l q')

/-- The routing score of expert `q` for the token `xr`. -/
def score (xr : Fin 2048 → EReal) (W1 : Fin 2048 → Fin 256 → EReal) (b1 : Fin 256 → EReal)
    (W2 : Fin 256 → Fin 8 → EReal) (b2 : Fin 8 → EReal) (q : Fin 8) : EReal :=
  softmax (logit xr W1 b1 W2 b2) q

/-- The pattern of `−∞` denotes the bottom element. -/
theorem ofBits_neg_inf : Ideal.ofBits .f32 0xFF800000#32 = (⊥ : EReal) := by
  simp [Ideal.ofBits, Ideal.ieee]

/-- Dividing by one changes nothing, at the infinities too. -/
theorem div_one (x : EReal) : Ideal.div x 1 = x := by
  have h := Ideal.div_coe (y := 1) one_ne_zero x
  rw [EReal.coe_one] at h
  rw [h]
  simp

/-! ## The whole batch

An array of shape `[a, b]` is read as its rows, a matrix as its entries, a bias as its entries; the batch's scores are
the token function applied to each row. -/

open Idealize.ShloMosaic.ValueIdx in
/-- Row `r` of a two-axis array. -/
abbrev row {a b : ℕ} (x : (⟨2, ![a, b]⟩ : Shape).Idx → EReal) (r : Fin a) : Fin b → EReal := fun k => x (ix2 r k)

open Idealize.ShloMosaic.ValueIdx in
/-- A two-axis array by its entries. -/
abbrev mat {a b : ℕ} (w : (⟨2, ![a, b]⟩ : Shape).Idx → EReal) : Fin a → Fin b → EReal := fun k j => w (ix2 k j)

open Idealize.ShloMosaic.ValueIdx in
/-- A one-axis array by its entries. -/
abbrev vec {a : ℕ} (c : (⟨1, ![a]⟩ : Shape).Idx → EReal) : Fin a → EReal := fun j => c (ix1 j)

/-- The routing scores of all 16384 tokens: entry `(r, q)` is the score of expert `q` for row `r` of `x`. -/
def scores (x : (⟨2, ![16384, 2048]⟩ : Shape).Idx → EReal) (w1 : (⟨2, ![2048, 256]⟩ : Shape).Idx → EReal)
    (c1 : (⟨1, ![256]⟩ : Shape).Idx → EReal) (w2 : (⟨2, ![256, 8]⟩ : Shape).Idx → EReal)
    (c2 : (⟨1, ![8]⟩ : Shape).Idx → EReal) : (⟨2, ![16384, 8]⟩ : Shape).Idx → EReal :=
  fun i => score (row x (i 0)) (mat w1) (vec c1) (mat w2) (vec c2) (i 1)

end Cert.Router

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.LibKeepdims.lean ====
/-
  Column and unit-axis layouts read at an index, by coordinates.

  A vector of `a` entries viewed as a column `[a, 1]`, a column `[a, 1]` broadcast across `b` columns, a
  `[1, 1, a]` block viewed as a vector, and an `[a, b]` array given a middle unit axis: each only re-addresses its operand, and each is read here at an index written
  by its coordinates, so that a chain of them rewrites to the operand at one explicit index. They stand beside the
  library's row forms (`[a]` as `[1, a]`, a row `[1, b]` broadcast down `a` rows).
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a, b]` array cast to `[a, 1, b]` reads, at `(i, u, j)`, the operand at `(i, j)`, whatever the unit coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.KernelScore.lean ====
import proofs.«125267_g54700703482363_cont_9to1_m_305_15_alg».proof.Proof.Gen.KernelIdeal.Skeleton
import proofs.«125267_g54700703482363_cont_9to1_m_305_15_alg».proof.Proof.Spec
import proofs.«125267_g54700703482363_cont_9to1_m_305_15_alg».proof.Proof.LibPlainDot
import proofs.«125267_g54700703482363_cont_9to1_m_305_15_alg».proof.Proof.LibKeepdims
import Idealize.ShloMosaic.Lib.ValueLayout
import Idealize.ShloMosaic.Lib.Pipeline.Value
import Idealize.ShloMosaic.PureOps.Ideal.Laws

noncomputable section

open scoped BigOperators

/-! # The kernel body computes the router's scores on its block

The body loads a block of 2048 rows of `x`, the two weight matrices whole, and the two biases as one-row arrays, and
stores one value: the softmax of the block's logits. Cut into its stages — the rectified hidden layer, the logits, the
row maxima broadcast back, the shifted exponentials, the quotient by the row sums — the stored value at `(p, q)` is
`Router.score` of row `p` of the block: each product into the zero accumulator is a sum over the contracted axis,
each bias is a row broadcast down the block, and each lane reduction runs along the eight logits of row `p` and is
put back as a column broadcast across them. -/

namespace Cert.KernelScore

open Cert.KernelIdeal Cert.KernelIdeal.Gen Idealize.ShloMosaic Idealize.ShloMosaic.ValueIdx Cert.Router

/-- A one-row array by its entries. -/
abbrev rowvec {a : ℕ} (c : (⟨2, ![1, a]⟩ : Shape).Idx → EReal) : Fin a → EReal := fun j => c (ix2 (0 : Fin 1) j)

variable (v0 : FVec Ideal S2048x2048 .f32) (v1 : FVec Ideal S2048x256 .f32) (v3 : FVec Ideal S1x256 .f32)
  (v9 : FVec Ideal S256x8 .f32) (v11 : FVec Ideal S1x8 .f32)

/-! ## The stages -/

/-- The block's hidden layer: the first product, the bias row, the rectifier. -/
def blockHidden : FVec Ideal S2048x256 .f32 :=
  maximumf (addf (matmul (φ₁ := .f32) (φ₂ := .f32) dot_S2048x2048_S2048x256_S2048x256_1_0_0_1_n_n none v0 v1 (constant S2048x256 .f32 0x00000000#32))
      (broadcastTo S2048x256 (shapeCast S1x256 v3 shapeCasts_S1x256_S1x256) broadcasts_S1x256_S2048x256))
    (broadcast S2048x256 (Scalar.ofBits .f32 0x00000000#32))

/-- The block's logits: the second product and its bias row. -/
def blockLogit : FVec Ideal S2048x8 .f32 :=
  addf (matmul (φ₁ := .f32) (φ₂ := .f32) dot_S2048x256_S256x8_S2048x8_1_0_0_1_n_n none (blockHidden v0 v1 v3) v9 (constant S2048x8 .f32 0x00000000#32))
    (broadcastTo S2048x8 (shapeCast S1x8 v11 shapeCasts_S1x8_S1x8) broadcasts_S1x8_S2048x8)

/-- Each row's largest logit, put back across the row. -/
def blockMax (l : FVec Ideal S2048x8 .f32) : FVec Ideal S2048x8 .f32 :=
  broadcastTo S2048x8 (shapeCast S2048x1
    (multiReduction .maximumf [1] S2048 l 0xFF800000#32 reduces_S2048x8_S2048 (.inl rfl) rfl) shapeCasts_S2048_S2048x1)
    broadcasts_S2048x1_S2048x8

/-- The shifted exponentials. -/
def blockExp (l : FVec Ideal S2048x8 .f32) : FVec Ideal S2048x8 .f32 := exp (subf l (blockMax l))

/-- The quotient by each row's sum of exponentials. -/
def blockSoftmax (l : FVec Ideal S2048x8 .f32) : FVec Ideal S2048x8 .f32 :=
  divf (blockExp l) (broadcastTo S2048x8 (shapeCast S2048x1
    (multiReduction .add [1] S2048 (blockExp l) 0x00000000#32 reduces_S2048x8_S2048 (.inl rfl) rfl) shapeCasts_S2048_S2048x1)
    broadcasts_S2048x1_S2048x8)

set_option maxRecDepth 65536 in
/-- The stored value is the stages composed. -/
theorem payload_eq : k0_pay1 (F := Ideal) v0 v1 v3 v9 v11 = blockSoftmax (blockLogit v0 v1 v3 v9 v11) := rfl

/-! ## The stages at an entry -/

/-- Row `p` with coordinate `k` put back on the reduced axis is the entry `(p, k)`. -/
theorem lift_lane (h : S2048x8.Reduces [1] S2048) (p : Fin 2048) (k : Fin 8) : h.lift (ix1 p) k = ix2 p k :=
  funext fun a => Fin.ext (by match a with | ⟨0, _⟩ => rfl | ⟨1, _⟩ => rfl)

theorem blockHidden_apply (p : Fin 2048) (j : Fin 256) :
    blockHidden v0 v1 v3 (ix2 p j) = hidden (row v0 p) (mat v1) (rowvec v3) j := by
  unfold blockHidden
  rw [maximumf_apply, addf_apply, broadcast_apply, broadcastTo_1b_ab_apply, shapeCast_self]
  simp only [matmul]
  rw [Cert.PlainDot.matmul_zero_apply dot_S2048x2048_S2048x256_S2048x256_1_0_0_1_n_n rfl]
  show max (_ + _) (Ideal.ofBits .f32 0x00000000#32) = _
  rw [Ideal.ofBits_zero_f32]
  rfl

theorem blockLogit_apply (p : Fin 2048) (q : Fin 8) :
    blockLogit v0 v1 v3 v9 v11 (ix2 p q) = logit (row v0 p) (mat v1) (rowvec v3) (mat v9) (rowvec v11) q := by
  unfold blockLogit
  rw [addf_apply, broadcastTo_1b_ab_apply, shapeCast_self]
  simp only [matmul]
  rw [Cert.PlainDot.matmul_zero_apply dot_S2048x256_S256x8_S2048x8_1_0_0_1_n_n rfl]
  simp only [blockHidden_apply]
  rfl

theorem blockMax_apply (l : FVec Ideal S2048x8 .f32) (p : Fin 2048) (q : Fin 8) :
    blockMax l (ix2 p q) = rowMax (row l p) := by
  have hf : (l ∘ reduces_S2048x8_S2048.lift (ix1 p)) = row l p := funext fun k => by
    show l (reduces_S2048x8_S2048.lift (ix1 p) k) = l (ix2 p k)
    exact congrArg l (lift_lane _ p k)
  unfold blockMax
  rw [Cert.Keepdims.broadcastTo_a1_ab_apply, Cert.Keepdims.shapeCast_a_a1_apply]
  refine (Ideal.multiReduction_maximumf_single l 0xFF800000#32 reduces_S2048x8_S2048 (.inl rfl) rfl (ix1 p)).trans ?_
  rw [hf]
  show Finset.fold max (Ideal.ofBits .f32 0xFF800000#32) (row l p) Finset.univ = _
  rw [ofBits_neg_inf]
  rfl

theorem blockExp_apply (l : FVec Ideal S2048x8 .f32) (p : Fin 2048) (q : Fin 8) :
    blockExp l (ix2 p q) = expShift (row l p) q := by
  unfold blockExp
  show Ideal.exp (l (ix2 p q) - blockMax l (ix2 p q)) = _
  rw [blockMax_apply]
  rfl

theorem blockSoftmax_apply (l : FVec Ideal S2048x8 .f32) (p : Fin 2048) (q : Fin 8) :
    blockSoftmax l (ix2 p q) = softmax (row l p) q := by
  unfold blockSoftmax
  rw [divf_apply, Cert.Keepdims.broadcastTo_a1_ab_apply, Cert.Keepdims.shapeCast_a_a1_apply, blockExp_apply]
  refine congrArg (Ideal.div _) ?_
  refine (Ideal.multiReduction_add_single (blockExp l) 0x00000000#32 reduces_S2048x8_S2048 (.inl rfl) rfl (ix1 p)).trans ?_
  refine Finset.sum_congr rfl fun k _ => ?_
  exact (congrArg (blockExp l) (lift_lane _ p k)).trans (blockExp_apply l p k)

/-- The stored value at `(p, q)` is the score of expert `q` for row `p` of the block. -/
theorem payload_apply (p : Fin 2048) (q : Fin 8) :
    k0_pay1 (F := Ideal) v0 v1 v3 v9 v11 (ix2 p q) = score (row v0 p) (mat v1) (rowvec v3) (mat v9) (rowvec v11) q := by
  have hl : row (blockLogit v0 v1 v3 v9 v11) p = logit (row v0 p) (mat v1) (rowvec v3) (mat v9) (rowvec v11) :=
    funext fun q' => blockLogit_apply v0 v1 v3 v9 v11 p q'
  rw [payload_eq, blockSoftmax_apply, hl]
  rfl

end Cert.KernelScore

end
-- ==== Proof.KernelValue.lean ====
import proofs.«125267_g54700703482363_cont_9to1_m_305_15_alg».proof.Proof.Gen.KernelIdeal.Value
import proofs.«125267_g54700703482363_cont_9to1_m_305_15_alg».proof.Proof.KernelScore
import Idealize.ShloMosaic.Lib.Pipeline.Value
import Idealize.ShloMosaic.Lib.ValueLayout
import Idealize.ShloMosaic.Lib.StableHlo.Run

noncomputable section

open scoped BigOperators

/-! # From the kernel's blocks to its result array

The grid has eight points. Point `t` is handed rows `2048 t … 2048 t + 2047` of `x`, the two weight matrices whole,
and the two biases as one-row arrays (the host reshapes each bias `[n]` to `[1, n]` before the call), and writes back rows
`2048 t … 2048 t + 2047` of the result. A token's scores depend on its own row only, so what point `t` writes is those
rows of `Router.scores` of the argument arrays; the eight row blocks tile the `16384` rows, so the result array is
`Router.scores` of the arguments. -/

namespace Cert.KernelValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.Router Cert.KernelScore

variable (m : (ℓ : Loc nD τ sig) → Buf (Elt Ideal) ℓ) (ρ : Dev nD → PrngReg)

theorem zero_offsets : (![0, 0] : Fin 2 → Nat) = fun _ => 0 := funext fun a => by fin_cases a <;> rfl

/-! ## The arrays and the blocks, at their literal types -/

abbrev xarr (c : Dev nD) : FVec Ideal S16384x2048 .f32 := m ((c : Thread nD τ).loc main_arg0)
abbrev w1arr (c : Dev nD) : FVec Ideal S2048x256 .f32 := m ((c : Thread nD τ).loc main_arg1)
abbrev b1arr (c : Dev nD) : FVec Ideal S256 .f32 := m ((c : Thread nD τ).loc main_arg2)
abbrev w2arr (c : Dev nD) : FVec Ideal S256x8 .f32 := m ((c : Thread nD τ).loc main_arg3)
abbrev b2arr (c : Dev nD) : FVec Ideal S8 .f32 := m ((c : Thread nD τ).loc main_arg4)

abbrev xblk (c : Dev nD) (t : Fin cfg0.N) : FVec Ideal S2048x2048 .f32 := iblk m c 0 t
abbrev w1blk (c : Dev nD) (t : Fin cfg0.N) : FVec Ideal S2048x256 .f32 := iblk m c 1 t
abbrev b1blk (c : Dev nD) (t : Fin cfg0.N) : FVec Ideal S1x256 .f32 := iblk m c 2 t
abbrev w2blk (c : Dev nD) (t : Fin cfg0.N) : FVec Ideal S256x8 .f32 := iblk m c 3 t
abbrev b2blk (c : Dev nD) (t : Fin cfg0.N) : FVec Ideal S1x8 .f32 := iblk m c 4 t

/-- The batch's scores of the argument arrays on core `c`. -/
abbrev batch (c : Dev nD) : FVec Ideal S16384x8 .f32 :=
  scores (xarr m c) (w1arr m c) (b1arr m c) (w2arr m c) (b2arr m c)

/-! ## The index maps over the grid -/

/-- Point `t` takes row block `t` of `x` and of the result; every other window stays at block `(0, 0)`. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The host reshapes of the two biases -/

theorem b1_staged (c : Dev nD) :
    (V m c main_v0 : S1x256.Idx → EReal) = shapeCast S1x256 (b1arr m c) shapeCasts_S256_S1x256 := by
  dsimp only [V, hostOps0]; after_results; rfl

theorem b2_staged (c : Dev nD) :
    (V m c main_v1 : S1x8.Idx → EReal) = shapeCast S1x8 (b2arr m c) shapeCasts_S8_S1x8 := by
  dsimp only [V, hostOps0]; after_results; rfl

/-! ## Each block read at an entry -/

/-- Row `p` of point `t`'s block of `x` is row `2048 t + p` of `x`. -/
theorem xblk_apply (c : Dev nD) (t : Fin cfg0.N) (p k : Fin 2048) (r : Fin 16384) (hr : r.val = 2048 * t.val + p.val) :
    xblk m c t (ix2 p k) = xarr m c (ix2 r k) := by
  obtain ⟨e0, e1, -⟩ := block_indices t
  show iblk m c 0 t (ix2 p k) = _
  unfold iblk
  rw [View.read_apply]
  refine (congrFun (V_main_arg0 m c) _).trans ?_
  refine congrArg (m ((c : Thread nD τ).loc main_arg0)) (funext fun a => Fin.ext ?_)
  match a with
  | ⟨0, _⟩ => show win0_0.index t (0 : Fin 2) * 2048 + 1 * p.val = r.val; rw [e0, hr]; omega
  | ⟨1, _⟩ => show win0_0.index t (1 : Fin 2) * 2048 + 1 * k.val = k.val; rw [e1]; omega

theorem w1blk_apply (c : Dev nD) (t : Fin cfg0.N) (k : Fin 2048) (j : Fin 256) :
    w1blk m c t (ix2 k j) = w1arr m c (ix2 k j) := by
  obtain ⟨-, -, e0, e1, -⟩ := block_indices t
  show iblk m c 1 t (ix2 k j) = _
  unfold iblk
  rw [View.read_apply]
  refine (congrFun (V_main_arg1 m c) _).trans ?_
  refine congrArg (m ((c : Thread nD τ).loc main_arg1)) (funext fun a => Fin.ext ?_)
  match a with
  | ⟨0, _⟩ => show win0_1.index t (0 : Fin 2) * 2048 + 1 * k.val = k.val; rw [e0]; omega
  | ⟨1, _⟩ => show win0_1.index t (1 : Fin 2) * 256 + 1 * j.val = j.val; rw [e1]; omega

theorem b1blk_apply (c : Dev nD) (t : Fin cfg0.N) (j : Fin 256) :
    b1blk m c t (ix2 (0 : Fin 1) j) = b1arr m c (ix1 j) := by
  obtain ⟨-, -, -, -, e0, e1, -⟩ := block_indices t
  show iblk m c 2 t (ix2 (0 : Fin 1) j) = _
  unfold iblk
  rw [View.read_apply]
  refine (congrFun (b1_staged m c) _).trans ?_
  refine Eq.trans (congrArg (shapeCast S1x256 (b1arr m c) shapeCasts_S256_S1x256) (funext fun a => Fin.ext ?_))
    (shapeCast_a_1a_apply (b1arr m c) shapeCasts_S256_S1x256 (0 : Fin 1) j)
  match a with
  | ⟨0, _⟩ => show win0_2.index t (0 : Fin 2) * 1 + 1 * 0 = 0; rw [e0]
  | ⟨1, _⟩ => show win0_2.index t (1 : Fin 2) * 256 + 1 * j.val = j.val; rw [e1]; omega

theorem w2blk_apply (c : Dev nD) (t : Fin cfg0.N) (j : Fin 256) (q : Fin 8) :
    w2blk m c t (ix2 j q) = w2arr m c (ix2 j q) := by
  obtain ⟨-, -, -, -, -, -, e0, e1, -⟩ := block_indices t
  show iblk m c 3 t (ix2 j q) = _
  unfold iblk
  rw [View.read_apply]
  refine (congrFun (V_main_arg3 m c) _).trans ?_
  refine congrArg (m ((c : Thread nD τ).loc main_arg3)) (funext fun a => Fin.ext ?_)
  match a with
  | ⟨0, _⟩ => show win0_3.index t (0 : Fin 2) * 256 + 1 * j.val = j.val; rw [e0]; omega
  | ⟨1, _⟩ => show win0_3.index t (1 : Fin 2) * 8 + 1 * q.val = q.val; rw [e1]; omega

theorem b2blk_apply (c : Dev nD) (t : Fin cfg0.N) (q : Fin 8) :
    b2blk m c t (ix2 (0 : Fin 1) q) = b2arr m c (ix1 q) := by
  obtain ⟨-, -, -, -, -, -, -, -, e0, e1, -⟩ := block_indices t
  show iblk m c 4 t (ix2 (0 : Fin 1) q) = _
  unfold iblk
  rw [View.read_apply]
  refine (congrFun (b2_staged m c) _).trans ?_
  refine Eq.trans (congrArg (shapeCast S1x8 (b2arr m c) shapeCasts_S8_S1x8) (funext fun a => Fin.ext ?_))
    (shapeCast_a_1a_apply (b2arr m c) shapeCasts_S8_S1x8 (0 : Fin 1) q)
  match a with
  | ⟨0, _⟩ => show win0_4.index t (0 : Fin 2) * 1 + 1 * 0 = 0; rw [e0]
  | ⟨1, _⟩ => show win0_4.index t (1 : Fin 2) * 8 + 1 * q.val = q.val; rw [e1]; omega

/-! ## What a point writes back -/

/-- Point `t` writes back its row block of the batch's scores. -/
theorem flushed_eq (c : Dev nD) (t : Fin cfg0.N) :
    (dats m 0 c).flushed 5 t = ((cfg0.win 5).blk t).view.read (Elt Ideal) (batch m c) := by
  have hN : cfg0.N = 8 := N_0
  have ht : t.val < 8 := by have := t.isLt; omega
  obtain ⟨-, -, -, -, -, -, -, -, -, -, e0, e1⟩ := block_indices t
  rw [flushed5]
  unfold out0_5
  rw [View.canon_unit_zero zero_offsets]
  simp only [View.ld_unit_zero (S := S2048x2048) zero_offsets, View.ld_unit_zero (S := S2048x256) zero_offsets,
    View.ld_unit_zero (S := S1x256) zero_offsets, View.ld_unit_zero (S := S256x8) zero_offsets,
    View.ld_unit_zero (S := S1x8) zero_offsets]
  funext y
  obtain ⟨p, q, rfl⟩ : ∃ (p : Fin 2048) (q : Fin 8), y = ix2 p q := ⟨y 0, y 1, eq_ix2 y⟩
  have hp : p.val < 2048 := p.isLt
  let r : Fin 16384 := ⟨2048 * t.val + p.val, by omega⟩
  have hx : row (xblk m c t) p = row (xarr m c) r := funext fun k => xblk_apply m c t p k r rfl
  have h1 : mat (w1blk m c t) = mat (w1arr m c) := funext fun k => funext fun j => w1blk_apply m c t k j
  have hb1 : rowvec (b1blk m c t) = vec (b1arr m c) := funext fun j => b1blk_apply m c t j
  have h2 : mat (w2blk m c t) = mat (w2arr m c) := funext fun j => funext fun q' => w2blk_apply m c t j q'
  have hb2 : rowvec (b2blk m c t) = vec (b2arr m c) := funext fun q' => b2blk_apply m c t q'
  have he : ((cfg0.win 5).blk t).view.emb (ix2 p q) = ix2 r q := funext fun a => Fin.ext (by
    match a with
    | ⟨0, _⟩ => show win0_5.index t (0 : Fin 2) * 2048 + 1 * p.val = 2048 * t.val + p.val; rw [e0]; omega
    | ⟨1, _⟩ => show win0_5.index t (1 : Fin 2) * 8 + 1 * q.val = q.val; rw [e1]; omega)
  show k0_pay1 (F := Ideal) (xblk m c t) (w1blk m c t) (b1blk m c t) (w2blk m c t) (b2blk m c t) (ix2 p q)
      = batch m c (((cfg0.win 5).blk t).view.emb (ix2 p q))
  refine (payload_apply (xblk m c t) (w1blk m c t) (b1blk m c t) (w2blk m c t) (b2blk m c t) p q).trans ?_
  rw [hx, h1, hb1, h2, hb2, he]
  rfl

/-! ## The row blocks tile the result -/

theorem mem_block (t : Fin cfg0.N) (i : S16384x8.Idx) :
    i ∈ ((cfg0.win 5).blk t).view.set ↔ ∀ a : Fin 2, win0_5.index t a * S2048x8.size a ≤ (i a).val
      ∧ (i a).val < win0_5.index t a * S2048x8.size a + S2048x8.size a := by
  show i ∈ ((View.whole main_v2).slice (win0_5.rect t)).set ↔ _
  rw [View.set_slice_whole, Rect.mem_set_unit]
  exact Iff.rfl

/-- Row `i 0` lies in the block of point `(i 0) / 2048`. -/
theorem covered (i : S16384x8.Idx) :
    ∃ t : Fin cfg0.N, (cfg0.win 5).flush t = true ∧ i ∈ ((cfg0.win 5).blk t).view.set := by
  have hN : cfg0.N = 8 := N_0
  have hi0 : (i 0).val < 16384 := (i 0).isLt
  have hi1 : (i 1).val < 8 := (i 1).isLt
  have hlt : (i 0).val / 2048 < cfg0.N := by rw [hN]; omega
  obtain ⟨-, -, -, -, -, -, -, -, -, -, e0, e1⟩ := block_indices ⟨(i 0).val / 2048, hlt⟩
  refine ⟨⟨(i 0).val / 2048, hlt⟩, flush0_5 _, ?_⟩
  rw [mem_block]
  intro a
  match a with
  | ⟨0, _⟩ =>
    show win0_5.index ⟨(i 0).val / 2048, hlt⟩ (0 : Fin 2) * 2048 ≤ (i 0).val
      ∧ (i 0).val < win0_5.index ⟨(i 0).val / 2048, hlt⟩ (0 : Fin 2) * 2048 + 2048
    rw [e0]
    show (i 0).val / 2048 * 2048 ≤ (i 0).val ∧ (i 0).val < (i 0).val / 2048 * 2048 + 2048
    omega
  | ⟨1, _⟩ =>
    show win0_5.index ⟨(i 0).val / 2048, hlt⟩ (1 : Fin 2) * 8 ≤ (i 1).val
      ∧ (i 1).val < win0_5.index ⟨(i 0).val / 2048, hlt⟩ (1 : Fin 2) * 8 + 8
    rw [e1]
    omega

/-- The result array after the run is the batch's scores of the argument arrays. -/
theorem final (c : Dev nD) : (dats m 0 c).arrAt 5 cfg0.N = batch m c :=
  (dats m 0 c).arrAt_eq_of_cover 5 (batch m c) (fun t _ => flushed_eq m c t) covered

/-! ## The run, read -/

/-- Every weakly fair execution of the kernel's program ends with the result array at the batch's scores and the
    arguments unchanged. -/
theorem run : θ_run defs (onTc (τ := τ) (main (F := Ideal))) ⟨m, fun _ => 0, ρ⟩ fun r => ∀ c : Dev nD,
      r.2.mem ((c : Thread nD τ).loc main_v2) = batch m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelValue

end
-- ==== Proof.RefScore.lean ====
import proofs.«125267_g54700703482363_cont_9to1_m_305_15_alg».proof.Proof.Gen.ReferenceIdeal.Read
import proofs.«125267_g54700703482363_cont_9to1_m_305_15_alg».proof.Proof.Spec
import Idealize.ShloMosaic.Lib.IdealHost

noncomputable section

open scoped BigOperators

/-! # The reference computes the router's scores

Read one operation at a time, entry `(r, q)` of the reference's result depends on row `r` of `x` only: the two
products are sums over the contracted axis, the biases are rows broadcast down the batch, the rectifier, the
exponential and the quotient act entrywise, and the two reductions run along the eight logits of row `r`. Two of
its operations change nothing on the extended reals: the quotient of the logits by the temperature `1`, and the
maximum of `−∞` with a row's maximum. What is left is `Router.score` of the row. -/

namespace Cert.RefScore

open Cert.ReferenceIdeal Cert.ReferenceIdeal.Gen Cert.ReferenceIdeal.Read
open Idealize.ShloMosaic Idealize.ShloMosaic.ValueIdx Cert.Router

variable (x : (⟨S16384x2048, .f32⟩ : BufTy).Contents (Elt Ideal)) (w1 : (⟨S2048x256, .f32⟩ : BufTy).Contents (Elt Ideal))
  (c1 : (⟨S256, .f32⟩ : BufTy).Contents (Elt Ideal)) (w2 : (⟨S256x8, .f32⟩ : BufTy).Contents (Elt Ideal))
  (c2 : (⟨S8, .f32⟩ : BufTy).Contents (Elt Ideal))

/-! ## The operands' indices, by coordinates -/

theorem first_lhs (r : Fin 16384) (j : Fin 256) (k : Fin 2048) : lidx_main_v0 (ix2 r j) k = ix2 r k :=
  funext fun a => Fin.ext (by match a with | ⟨0, _⟩ => rfl | ⟨1, _⟩ => rfl)

theorem first_rhs (r : Fin 16384) (j : Fin 256) (k : Fin 2048) : ridx_main_v0 (ix2 r j) k = ix2 k j :=
  funext fun a => Fin.ext (by match a with | ⟨0, _⟩ => rfl | ⟨1, _⟩ => rfl)

theorem first_bias (r : Fin 16384) (j : Fin 256) : idx_main_v1 (idx_main_v2 (ix2 r j)) = ix1 j :=
  funext fun a => Fin.ext (by match a with | ⟨0, _⟩ => rfl)

theorem second_lhs (r : Fin 16384) (q : Fin 8) (j : Fin 256) : lidx_main_v5 (ix2 r q) j = ix2 r j :=
  funext fun a => Fin.ext (by match a with | ⟨0, _⟩ => rfl | ⟨1, _⟩ => rfl)

theorem second_rhs (r : Fin 16384) (q : Fin 8) (j : Fin 256) : ridx_main_v5 (ix2 r q) j = ix2 j q :=
  funext fun a => Fin.ext (by match a with | ⟨0, _⟩ => rfl | ⟨1, _⟩ => rfl)

theorem second_bias (r : Fin 16384) (q : Fin 8) : idx_main_v6 (idx_main_v7 (ix2 r q)) = ix1 q :=
  funext fun a => Fin.ext (by match a with | ⟨0, _⟩ => rfl)

theorem max_column (r : Fin 16384) (q : Fin 8) : idx_main_v14 (idx_main_v15 (ix2 r q)) = ix1 r :=
  funext fun a => Fin.ext (by match a with | ⟨0, _⟩ => rfl)

theorem sum_column (r : Fin 16384) (q : Fin 8) : idx_main_v19 (idx_main_v20 (ix2 r q)) = ix1 r :=
  funext fun a => Fin.ext (by match a with | ⟨0, _⟩ => rfl)

theorem sum_entry (r : Fin 16384) (k : Fin 8) : idx_main_v18 (ix1 r) k = ix2 r k :=
  funext fun a => Fin.ext (by match a with | ⟨0, _⟩ => rfl | ⟨1, _⟩ => rfl)

/-- Row `r` with coordinate `k` put back on the reduced axis is the entry `(r, k)`. -/
theorem lift_entry (h : S16384x8.Reduces [1] S16384) (r : Fin 16384) (k : Fin 8) : h.lift (ix1 r) k = ix2 r k :=
  funext fun a => Fin.ext (by match a with | ⟨0, _⟩ => rfl | ⟨1, _⟩ => rfl)

/-! ## The stages at an entry -/

/-- The rectified hidden layer at `(r, j)`. -/
theorem hidden_ref (r : Fin 16384) (j : Fin 256) :
    val_main_v4 (F := Ideal) x w1 c1 (ix2 r j) = hidden (row x r) (mat w1) (vec c1) j := by
  rw [val_main_v4_apply, val_main_v3_apply, val_main_v0_apply, val_main_v2_apply, val_main_v1_apply,
    val_main_call0_v0_apply, val_main_call0_cst_apply]
  simp only [first_lhs, first_rhs, first_bias, Ideal.addf_def, Ideal.maximumf_def, Ideal.ofBits_def,
    Ideal.ofBits_zero_f32]
  rfl

/-- The logits at `(r, q)`. -/
theorem logit_ref (r : Fin 16384) (q : Fin 8) :
    val_main_v8 (F := Ideal) x w1 c1 w2 c2 (ix2 r q) = logit (row x r) (mat w1) (vec c1) (mat w2) (vec c2) q := by
  rw [val_main_v8_apply, val_main_v5_apply, val_main_v7_apply, val_main_v6_apply]
  simp only [second_lhs, second_rhs, second_bias, hidden_ref, Ideal.addf_def]
  rfl

/-- The logits over the temperature `1` are the logits. -/
theorem scaled_ref (r : Fin 16384) (q : Fin 8) :
    val_main_v10 (F := Ideal) x w1 c1 w2 c2 (ix2 r q) = logit (row x r) (mat w1) (vec c1) (mat w2) (vec c2) q := by
  rw [val_main_v10_apply, val_main_v9_apply, val_main_cst_apply, logit_ref]
  simp only [Ideal.hostDivf_def, Ideal.ofBits_def, Ideal.ofBits_one_f32]
  exact Router.div_one _

/-- The row's maximum: the host's reduction is the fold of `max` from `−∞` over the row's eight logits, and the
    further maximum with `−∞` is absorbed. -/
theorem rowMax_ref (r : Fin 16384) :
    val_main_v13 (F := Ideal) x w1 c1 w2 c2 (ix1 r) = rowMax (logit (row x r) (mat w1) (vec c1) (mat w2) (vec c2)) := by
  have h : S16384x8.Reduces [1] S16384 := by decide
  have hf : (val_main_v10 (F := Ideal) x w1 c1 w2 c2 ∘ h.lift (ix1 r))
      = logit (row x r) (mat w1) (vec c1) (mat w2) (vec c2) := funext fun k =>
    (congrArg (val_main_v10 (F := Ideal) x w1 c1 w2 c2) (lift_entry h r k)).trans (scaled_ref x w1 c1 w2 c2 r k)
  rw [val_main_v13_apply, val_main_v12_apply, val_main_cst_1_apply]
  unfold val_main_v11
  rw [Host.reduce_eq_fold_single FloatOps.maximumf _ _ reducesTo_S16384x8_S16384_d1 h h_S_ (ix1 r), hf,
    val_main_cst_0_apply]
  simp only [Ideal.maximumf_def, Ideal.ofBits_def, ofBits_neg_inf]
  rw [max_bot_left]
  rfl

/-- The shifted exponential at `(r, q)`. -/
theorem expShift_ref (r : Fin 16384) (q : Fin 8) :
    val_main_v17 (F := Ideal) x w1 c1 w2 c2 (ix2 r q)
      = expShift (logit (row x r) (mat w1) (vec c1) (mat w2) (vec c2)) q := by
  rw [val_main_v17_apply, val_main_v16_apply, val_main_v15_apply, val_main_v14_apply, max_column, scaled_ref,
    rowMax_ref]
  rfl

/-- The score at `(r, q)`. -/
theorem score_ref (r : Fin 16384) (q : Fin 8) :
    val_main_v21 (F := Ideal) x w1 c1 w2 c2 (ix2 r q) = score (row x r) (mat w1) (vec c1) (mat w2) (vec c2) q := by
  rw [val_main_v21_apply, val_main_v20_apply, val_main_v19_apply, val_main_v18_apply, val_main_cst_2_apply,
    sum_column, expShift_ref]
  simp only [sum_entry, expShift_ref, Ideal.hostDivf_def, Ideal.ofBits_def, Ideal.ofBits_zero_f32, zero_add]
  rfl

/-- The reference's result array is the batch's scores. -/
theorem reference_scores : val_main_v21 (F := Ideal) x w1 c1 w2 c2 = scores x w1 c1 w2 c2 := by
  funext i
  obtain ⟨r, q, rfl⟩ : ∃ (r : Fin 16384) (q : Fin 8), i = ix2 r q := ⟨i 0, i 1, eq_ix2 i⟩
  exact score_ref x w1 c1 w2 c2 r q

end Cert.RefScore

end
-- ==== Proof.lean ====
/- The token router `softmax (relu (x · W1 + b1) · W2 + b2)` over a batch of 16384 tokens: a kernel that streams the
   batch through eight blocks of 2048 rows, against the same function written with whole-array operations.

   On the extended reals both programs compute, for the token in row `r` and expert `q`,
   `exp (l q − M) / ∑ q', exp (l q' − M)` with `l = relu (x r · W1 + b1) · W2 + b2` the row's eight logits and `M`
   their maximum folded from `−∞` (`Router.score`, Proof/Spec.lean). Nothing couples two rows, so the tiling of the
   batch does not show in the result: point `t` of the grid writes rows `2048 t … 2048 t + 2047` of that function
   of the whole arguments, and the eight blocks tile the result (Proof/KernelScore.lean for a block, Proof/KernelValue.lean
   for the array). The reference spells the same terms with two operations more, the quotient of the logits by the
   temperature `1` and the maximum of `−∞` with the row's maximum; neither changes a value, at the infinities
   either (Proof/RefScore.lean). No law that fails at an infinity is used — a product into the zero accumulator and
   the host's product are one sum, a lane reduction and the host's reduction are one sum or one fold — so the
   finiteness of the inputs is never opened. The kernel's program was printed with no rewrite, so it is its own
   idealization. -/
import proofs.«125267_g54700703482363_cont_9to1_m_305_15_alg».proof.Defs
import proofs.«125267_g54700703482363_cont_9to1_m_305_15_alg».proof.Proof.Gen.Kernel
import proofs.«125267_g54700703482363_cont_9to1_m_305_15_alg».proof.Proof.Gen.Kernel.Skeleton
import proofs.«125267_g54700703482363_cont_9to1_m_305_15_alg».proof.Proof.Gen.Kernel.Launch
import proofs.«125267_g54700703482363_cont_9to1_m_305_15_alg».proof.Proof.Gen.Kernel.Points
import proofs.«125267_g54700703482363_cont_9to1_m_305_15_alg».proof.Proof.Gen.Kernel.Frame
import proofs.«125267_g54700703482363_cont_9to1_m_305_15_alg».proof.Proof.Gen.KernelIdeal
import proofs.«125267_g54700703482363_cont_9to1_m_305_15_alg».proof.Proof.Gen.KernelIdeal.Skeleton
import proofs.«125267_g54700703482363_cont_9to1_m_305_15_alg».proof.Proof.Gen.KernelIdeal.Launch
import proofs.«125267_g54700703482363_cont_9to1_m_305_15_alg».proof.Proof.Gen.KernelIdeal.Points
import proofs.«125267_g54700703482363_cont_9to1_m_305_15_alg».proof.Proof.Gen.KernelIdeal.Frame
import proofs.«125267_g54700703482363_cont_9to1_m_305_15_alg».proof.Proof.Gen.ReferenceIdeal
import proofs.«125267_g54700703482363_cont_9to1_m_305_15_alg».proof.Proof.Gen.Pre_finite_inputs
import proofs.«125267_g54700703482363_cont_9to1_m_305_15_alg».proof.Proof.Gen.KernelIdeal.Value
import proofs.«125267_g54700703482363_cont_9to1_m_305_15_alg».proof.Proof.Gen.ReferenceIdeal.Run
import proofs.«125267_g54700703482363_cont_9to1_m_305_15_alg».proof.Proof.Gen.ReferenceIdeal.Read
import proofs.«125267_g54700703482363_cont_9to1_m_305_15_alg».proof.Proof.KernelValue
import proofs.«125267_g54700703482363_cont_9to1_m_305_15_alg».proof.Proof.RefScore
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: it runs, and writes no argument. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten. -/
theorem preserves : Cert.preserves_Kernel_KernelIdeal := trivial

/-- From arguments that agree, both programs end with the result array at the batch's scores: the kernel's eight
    row blocks tile that array, and the reference's term is the same function entry by entry. -/
theorem algebraic : Cert.algebraic_KernelIdeal_ReferenceIdeal := by
  intro m ρ m' ρ' _ hagree
  refine ⟨fun c => Cert.KernelValue.batch m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.RefScore.reference_scores, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
